-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S2x200000 : Shape := ⟨2, ![2, 200000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : IVec S2x200000 32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S2x800000 : Shape := ⟨2, ![2, 800000]⟩
abbrev S2x200000 : Shape := ⟨2, ![2, 200000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S5000x1 : Shape := ⟨2, ![5000, 1]⟩
abbrev S5000 : Shape := ⟨1, ![5000]⟩

abbrev nBuf : Space → Nat
  | .hbm => 111
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S2x200000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x128, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x128, .f32⟩
  | .hbm, ⟨57, _⟩ => ⟨S850000x1, .f32⟩
  | .hbm, ⟨58, _⟩ => ⟨S850000x128, .f32⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x128, .f32⟩
  | .hbm, ⟨77, _⟩ => ⟨S850000x1, .f32⟩
  | .hbm, ⟨78, _⟩ => ⟨S850000x128, .f32⟩
  | .hbm, ⟨79, _⟩ => ⟨S850000x128, .f32⟩
  | .hbm, ⟨80, _⟩ => ⟨S_, .f32⟩
  | .hbm, ⟨81, _⟩ => ⟨S50000x128, .f32⟩
  | .hbm, ⟨82, _⟩ => ⟨S850000x1, .i32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S1x200000, .i32⟩
  | .hbm, ⟨88, _⟩ => ⟨S200000, .i32⟩
  | .hbm, ⟨89, _⟩ => ⟨S1x200000, .i32⟩
  | .hbm, ⟨90, _⟩ => ⟨S200000, .i32⟩
  | .hbm, ⟨91, _⟩ => ⟨S_, .i32⟩
  | .hbm, ⟨92, _⟩ => ⟨S200000, .i32⟩
  | .hbm, ⟨93, _⟩ => ⟨S200000, .i1⟩
  | .hbm, ⟨94, _⟩ => ⟨S_, .i32⟩
  | .hbm, ⟨95, _⟩ => ⟨S200000, .i32⟩
  | .hbm, ⟨96, _⟩ => ⟨S200000, .i32⟩
  | .hbm, ⟨97, _⟩ => ⟨S200000, .i32⟩
  | .hbm, ⟨98, _⟩ => ⟨S200000x1, .i32⟩
  | .hbm, ⟨99, _⟩ => ⟨S200000x128, .f32⟩
  | .hbm, ⟨100, _⟩ => ⟨S_, .i32⟩
  | .hbm, ⟨101, _⟩ => ⟨S200000, .i32⟩
  | .hbm, ⟨102, _⟩ => ⟨S200000, .i1⟩
  | .hbm, ⟨103, _⟩ => ⟨S_, .i32⟩
  | .hbm, ⟨104, _⟩ => ⟨S200000, .i32⟩
  | .hbm, ⟨105, _⟩ => ⟨S200000, .i32⟩
  | .hbm, ⟨106, _⟩ => ⟨S200000, .i32⟩
  | .hbm, ⟨107, _⟩ => ⟨S200000x1, .i32⟩
  | .hbm, ⟨108, _⟩ => ⟨S200000x128, .f32⟩
  | .hbm, ⟨109, _⟩ => ⟨S200000x1, .f32⟩
  | .hbm, ⟨110, _⟩ => ⟨S200000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_12 : Ref sig .tc := ⟨.hbm, 91, rfl⟩
abbrev main_v68 : Ref sig .tc := ⟨.hbm, 92, rfl⟩
abbrev main_v69 : Ref sig .tc := ⟨.hbm, 93, rfl⟩
abbrev main_c_13 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c_14 : Ref sig .tc := ⟨.hbm, 100, rfl⟩
abbrev main_v75 : Ref sig .tc := ⟨.hbm, 101, rfl⟩
abbrev main_v76 : Ref sig .tc := ⟨.hbm, 102, rfl⟩
abbrev main_c_15 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  reduces_S5000x128_S5000 : S5000x128.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  shapeCasts_S200000x1_S200000 : S200000x1.ShapeCasts S200000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S200000x1_S200000x128_1_0_n_n_0_1_1128_wf : GatherDims.WF S50000x128 S200000x1 S200000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S200000x128.size a
  hwx2_0 : ∀ i : grid2.Coords, EltTy.bits .f32 = 32 ∨ (Rect.block (s := S200000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S200000x128.size a
  hwx2_1 : ∀ i : grid2.Coords, EltTy.bits .f32 = 32 ∨ (Rect.block (s := S200000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S200000x1.size a
  hwx2_2 : ∀ i : grid2.Coords, EltTy.bits .f32 = 32 ∨ (Rect.block (s := S200000x1) S5000x1.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v74) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v81) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v82) S5000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S2x200000 : Shape := ⟨2, ![2, 200000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩

abbrev nBuf : Space → Nat
  | .hbm => 159
  | .vmem => 0
  | .smem => 0
  | _ => 0

abbrev hbmTy0_0 (i : Nat) : BufTy := match i % 128 with
  | 0 => ⟨S50000x128, .f32⟩
  | 1 => ⟨S2x800000, .i32⟩
  | 2 => ⟨S2x200000, .i32⟩
  | 3 => ⟨S128x128, .f32⟩
  | 4 => ⟨S128, .f32⟩
  | 5 => ⟨S128x128, .f32⟩
  | 6 => ⟨S128, .f32⟩
  | 7 => ⟨S1x800000, .i32⟩
  | 8 => ⟨S800000, .i32⟩
  | 9 => ⟨S1x800000, .i32⟩
  | 10 => ⟨S800000, .i32⟩
  | 11 => ⟨S50000, .i32⟩
  | 12 => ⟨S850000, .i32⟩
  | 13 => ⟨S850000, .i32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S50000x128, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x128, .f32⟩
  | 57 => ⟨S850000x1, .f32⟩
  | 58 => ⟨S850000x128, .f32⟩
  | 59 => ⟨S850000x128, .f32⟩
  | 60 => ⟨S_, .f32⟩
  | 61 => ⟨S50000x128, .f32⟩
  | 62 => ⟨S850000x1, .i32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000, .i32⟩
  | 71 => ⟨S850000, .i32⟩
  | 72 => ⟨S850000, .i32⟩
  | 73 => ⟨S_, .f32⟩
  | 74 => ⟨S850000, .f32⟩
  | 75 => ⟨S_, .f32⟩
  | 76 => ⟨S50000, .f32⟩
  | 77 => ⟨S850000x1, .i32⟩
  | 78 => ⟨S50000, .f32⟩
  | 79 => ⟨S_, .f32⟩
  | 80 => ⟨S50000, .f32⟩
  | 81 => ⟨S50000, .i1⟩
  | 82 => ⟨S50000, .f32⟩
  | 83 => ⟨S_, .f32⟩
  | 84 => ⟨S_, .f32⟩
  | 85 => ⟨S50000, .f32⟩
  | 86 => ⟨S50000, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S850000, .f32⟩
  | 106 => ⟨S50000x128, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000x128, .f32⟩
  | 116 => ⟨S850000x1, .f32⟩
  | 117 => ⟨S850000x128, .f32⟩
  | 118 => ⟨S850000x128, .f32⟩
  | 119 => ⟨S_, .f32⟩
  | 120 => ⟨S50000x128, .f32⟩
  | 121 => ⟨S850000x1, .i32⟩
  | 122 => ⟨S50000x128, .f32⟩
  | 123 => ⟨S1x128, .f32⟩
  | 124 => ⟨S50000x128, .f32⟩
  | 125 => ⟨S50000x128, .f32⟩
  | 126 => ⟨S1x200000, .i32⟩
  | 127 => ⟨S200000, .i32⟩
  | _ => ⟨S50000x128, .f32⟩

abbrev hbmTy0_1 (i : Nat) : BufTy := match i % 128 with
  | 0 => ⟨S1x200000, .i32⟩
  | 1 => ⟨S200000, .i32⟩
  | 2 => ⟨S_, .i32⟩
  | 3 => ⟨S200000, .i32⟩
  | 4 => ⟨S200000, .i1⟩
  | 5 => ⟨S_, .i32⟩
  | 6 => ⟨S200000, .i32⟩
  | 7 => ⟨S200000, .i32⟩
  | 8 => ⟨S200000, .i32⟩
  | 9 => ⟨S200000x1, .i32⟩
  | 10 => ⟨S200000x128, .f32⟩
  | 11 => ⟨S_, .i32⟩
  | 12 => ⟨S200000, .i32⟩
  | 13 => ⟨S200000, .i1⟩
  | 14 => ⟨S_, .i32⟩
  | 15 => ⟨S200000, .i32⟩
  | 16 => ⟨S200000, .i32⟩
  | 17 => ⟨S200000, .i32⟩
  | 18 => ⟨S200000x1, .i32⟩
  | 19 => ⟨S200000x128, .f32⟩
  | 20 => ⟨S200000x128, .f32⟩
  | 21 => ⟨S_, .f32⟩
  | 22 => ⟨S200000, .f32⟩
  | 23 => ⟨S200000, .f32⟩
  | 24 => ⟨S200000, .f32⟩
  | 25 => ⟨S_, .f32⟩
  | 26 => ⟨S200000, .f32⟩
  | 27 => ⟨S200000, .f32⟩
  | 28 => ⟨S_, .f32⟩
  | 29 => ⟨S200000, .f32⟩
  | 30 => ⟨S200000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v58 : Ref sig .tc := ⟨.hbm, 86, rfl⟩
abbrev main_c_13 : Ref sig .tc := ⟨.hbm, 87, rfl⟩
abbrev main_v59 : Ref sig .tc := ⟨.hbm, 88, rfl⟩
abbrev main_v60 : Ref sig .tc := ⟨.hbm, 89, rfl⟩
abbrev main_c_14 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_15 : Ref sig .tc := ⟨.hbm, 96, rfl⟩
abbrev main_v66 : Ref sig .tc := ⟨.hbm, 97, rfl⟩
abbrev main_v67 : Ref sig .tc := ⟨.hbm, 98, rfl⟩
abbrev main_c_16 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_19 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_20 : Ref sig .tc := ⟨.hbm, 130, rfl⟩
abbrev main_v95 : Ref sig .tc := ⟨.hbm, 131, rfl⟩
abbrev main_v96 : Ref sig .tc := ⟨.hbm, 132, rfl⟩
abbrev main_c_21 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_c_22 : Ref sig .tc := ⟨.hbm, 139, rfl⟩
abbrev main_v102 : Ref sig .tc := ⟨.hbm, 140, rfl⟩
abbrev main_v103 : Ref sig .tc := ⟨.hbm, 141, rfl⟩
abbrev main_c_23 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_24 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_25 : Ref sig .tc := ⟨.hbm, 153, rfl⟩
abbrev main_v113 : Ref sig .tc := ⟨.hbm, 154, rfl⟩
abbrev main_v114 : Ref sig .tc := ⟨.hbm, 155, rfl⟩
abbrev main_cst_26 : Ref sig .tc := ⟨.hbm, 156, rfl⟩
abbrev main_v115 : Ref sig .tc := ⟨.hbm, 157, rfl⟩
abbrev main_v116 : Ref sig .tc := ⟨.hbm, 158, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  reducesTo_S200000x128_S200000_d1 : S200000x128.ReducesTo [1] S200000
  h_S_ : 0 < S_.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S200000x1_S200000x128_1_0_n_n_0_1_1128_wf : GatherDims.WF S50000x128 S200000x1 S200000x128 [1] [0] [] [0] [] 1 ![1, 128]

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf

class Facts : Prop extends Facts₀ where

variable [Facts]
-- ==== Proof.FoldEdges.lean ====
import proofs.«166670_j33964601377214_1_alg».proof.Proof.Gen.KernelIdeal.Frame
import proofs.«166670_j33964601377214_1_alg».proof.Proof.RefReadP

/-!
The contents of the buffers that cross a region boundary, read back through the program's fold of boundary contents
and named as the reference's own stages of the arguments: the edge columns with their self-loops, and the symmetric
normalisation `d⁻¹ᐟ²[src] · d⁻¹ᐟ²[dst]` of every edge, `d` the in-degree counted with the self-loop. The kernel's
program computes them once, before the first region, by the reference's operations in the reference's order; no region
and no later host operation writes them, so they are the same arrays at every later boundary.
-/

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.ReadP (val_main_v5 val_main_v6 val_main_v29)

variable (m : (ℓ : Loc nD τ sig) → Buf (Elt Ideal) ℓ) (ρ : Dev nD → PrngReg)

/-- A stretch of host operations none of which writes the buffer leaves it as it was: the operations' result buffers are
    listed and each is another reference. -/
macro "untouched_by " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The edge list as launched, on core `c`. -/
abbrev edges (c : Dev nD) := m ((c.tc : Thread nD τ).loc main_arg1)

open Cert.ReferenceIdeal.ReadP (val_main_v12 val_main_v13 val_main_v14 val_main_cst_2)

/-- The edge list's type as the reference's stages take it. -/
abbrev Edges := (⟨Cert.ReferenceIdeal.S2x800000, .i32⟩ : BufTy).Contents (Elt Ideal)

/-! ## After the first stretch: the columns, the degree compared with zero, its inverse square root -/

theorem W1_v5 (c : Dev nD) : W1 (F := Ideal) m ρ c (Proc.devRef .tc main_v5) = val_main_v5 (F := Ideal) (edges m c) := by
  show StableHlo.after hostOps0 (W0 m ρ c) (Proc.devRef .tc main_v5) = _
  after_results
  rfl

theorem W1_v6 (c : Dev nD) : W1 (F := Ideal) m ρ c (Proc.devRef .tc main_v6) = val_main_v6 (F := Ideal) (edges m c) := by
  show StableHlo.after hostOps0 (W0 m ρ c) (Proc.devRef .tc main_v6) = _
  after_results
  rfl

/-- Where the in-degree, counted with the self-loop, is positive. -/
theorem W1_v12 (c : Dev nD) : W1 (F := Ideal) m ρ c (Proc.devRef .tc main_v12) = val_main_v12 (F := Ideal) (edges m c) := by
  show StableHlo.after hostOps0 (W0 m ρ c) (Proc.devRef .tc main_v12) = _
  after_results
  rfl

/-- The inverse square root of that degree. -/
theorem W1_v13 (c : Dev nD) : W1 (F := Ideal) m ρ c (Proc.devRef .tc main_v13) = val_main_v13 (F := Ideal) (edges m c) := by
  show StableHlo.after hostOps0 (W0 m ρ c) (Proc.devRef .tc main_v13) = _
  after_results
  rfl

theorem W1_cst_2 (c : Dev nD) : W1 (F := Ideal) m ρ c (Proc.devRef .tc main_cst_2) = val_main_cst_2 (F := Ideal) := by
  show StableHlo.after hostOps0 (W0 m ρ c) (Proc.devRef .tc main_cst_2) = _
  after_results
  rfl

/-! ## After the selecting call: `d⁻¹ᐟ²` where the degree is positive, zero elsewhere -/

/-- The call's three operations read over ANY contents below them that hold the comparison, the inverse square roots and
    the zero: the select of the second where the first holds, of the zero elsewhere. -/
theorem read_v14 (Wlow : Valuation τ sig (Elt Ideal)) (e : Edges)
    (h12 : Wlow (Proc.devRef .tc main_v12) = val_main_v12 (F := Ideal) e)
    (h13 : Wlow (Proc.devRef .tc main_v13) = val_main_v13 (F := Ideal) e)
    (hc : Wlow (Proc.devRef .tc main_cst_2) = val_main_cst_2 (F := Ideal)) :
    StableHlo.after (hostOps0_1 (F := Ideal)) Wlow (Proc.devRef .tc main_v14) = val_main_v14 (F := Ideal) e := by
  after_results
  simp only [TRef.ofBuf, TRef.toBuf, cast_eq]
  rw [show Wlow (Proc.devRef .tc main_v12) = val_main_v12 (F := Ideal) e from h12,
      show Wlow (Proc.devRef .tc main_v13) = val_main_v13 (F := Ideal) e from h13,
      show Wlow (Proc.devRef .tc main_cst_2) = val_main_cst_2 (F := Ideal) from hc]
  rfl

theorem W2_v14 (c : Dev nD) : W2 (F := Ideal) m ρ c (Proc.devRef .tc main_v14) = val_main_v14 (F := Ideal) (edges m c) :=
  read_v14 (W1 m ρ c) (edges m c) (W1_v12 m ρ c) (W1_v13 m ρ c) (W1_cst_2 m ρ c)

theorem W2_v5 (c : Dev nD) : W2 (F := Ideal) m ρ c (Proc.devRef .tc main_v5) = val_main_v5 (F := Ideal) (edges m c) :=
  calc W2 m ρ c (Proc.devRef .tc main_v5)
    _ = W1 m ρ c (Proc.devRef .tc main_v5) := by untouched_by hostOps0_1
    _ = _ := W1_v5 m ρ c

theorem W2_v6 (c : Dev nD) : W2 (F := Ideal) m ρ c (Proc.devRef .tc main_v6) = val_main_v6 (F := Ideal) (edges m c) :=
  calc W2 m ρ c (Proc.devRef .tc main_v6)
    _ = W1 m ρ c (Proc.devRef .tc main_v6) := by untouched_by hostOps0_1
    _ = _ := W1_v6 m ρ c

/-! ## At the first region's entry: the normalisation of every edge -/

/-- The third stretch read over ANY contents below it that hold the two columns and the rectified `d⁻¹ᐟ²`: each column's
    negative entries wrapped by the node count, `d⁻¹ᐟ²` gathered at the wrapped source and at the wrapped destination,
    the two multiplied. -/
theorem read_v29 (Wlow : Valuation τ sig (Elt Ideal)) (e : Edges)
    (h14 : Wlow (Proc.devRef .tc main_v14) = val_main_v14 (F := Ideal) e)
    (h5 : Wlow (Proc.devRef .tc main_v5) = val_main_v5 (F := Ideal) e)
    (h6 : Wlow (Proc.devRef .tc main_v6) = val_main_v6 (F := Ideal) e) :
    StableHlo.after (hostOps0_2 (F := Ideal)) Wlow (Proc.devRef .tc main_v29) = val_main_v29 (F := Ideal) e := by
  after_results_simp
  rw [show Wlow (Proc.devRef .tc main_v14) = val_main_v14 (F := Ideal) e from h14,
      show Wlow (Proc.devRef .tc main_v5) = val_main_v5 (F := Ideal) e from h5,
      show Wlow (Proc.devRef .tc main_v6) = val_main_v6 (F := Ideal) e from h6]
  rfl

theorem W3_v29 (c : Dev nD) : W3 (F := Ideal) m ρ c (Proc.devRef .tc main_v29) = val_main_v29 (F := Ideal) (edges m c) :=
  read_v29 (W2 m ρ c) (edges m c) (W2_v14 m ρ c) (W2_v5 m ρ c) (W2_v6 m ρ c)

theorem W3_v5 (c : Dev nD) : W3 (F := Ideal) m ρ c (Proc.devRef .tc main_v5) = val_main_v5 (F := Ideal) (edges m c) :=
  calc W3 m ρ c (Proc.devRef .tc main_v5)
    _ = W2 m ρ c (Proc.devRef .tc main_v5) := by untouched_by hostOps0_2
    _ = _ := W2_v5 m ρ c

theorem W3_v6 (c : Dev nD) : W3 (F := Ideal) m ρ c (Proc.devRef .tc main_v6) = val_main_v6 (F := Ideal) (edges m c) :=
  calc W3 m ρ c (Proc.devRef .tc main_v6)
    _ = W2 m ρ c (Proc.devRef .tc main_v6) := by untouched_by hostOps0_2
    _ = _ := W2_v6 m ρ c

end Cert.KernelIdeal.Fold

end
-- ==== Proof.Spec.lean ====
import proofs.«166670_j33964601377214_1_alg».proof.KernelIdeal
import Idealize.ShloMosaic.PureOps.Ideal

/-!
The three dense pieces of the network as whole-array functions over the extended reals, index by index:
a feature transform `x · W` (row `i 0` of `x` against column `i 1` of `W`, summed over the 128 shared
features), the rectifier `max(x, 0)` applied entry by entry, and the link score
`σ(∑ₖ a[e, k] · b[e, k])` of a pair of gathered rows, `σ` the logistic function.
-/

noncomputable section

namespace Cert.KernelIdeal.Spec

open Cert.KernelIdeal Idealize.ShloMosaic

/-- Entry `k` of the row of a `50000 × 128` array that holds index `i`. -/
abbrev rowAt (i : S50000x128.Idx) (k : Fin 128) : S50000x128.Idx := fun a => match a with
  | ⟨0, _⟩ => ⟨(i 0).val, (i 0).isLt⟩
  | ⟨1, _⟩ => ⟨k.val, k.isLt⟩

/-- Entry `k` of the column of a `128 × 128` weight array that index `i` of the product lies in. -/
abbrev colAt (i : S50000x128.Idx) (k : Fin 128) : S128x128.Idx := fun a => match a with
  | ⟨0, _⟩ => ⟨k.val, k.isLt⟩
  | ⟨1, _⟩ => ⟨(i 1).val, (i 1).isLt⟩

/-- The feature transform `x · W`: entry `(n, j)` is `∑ₖ x[n, k] · W[k, j]`. -/
def dense (x : S50000x128.Idx → Elt Ideal .f32) (w : S128x128.Idx → Elt Ideal .f32) : S50000x128.Idx → Elt Ideal .f32 :=
  fun i => ∑ k : Fin 128, x (rowAt i k) * w (colAt i k)

/-- The rectifier, entry by entry: `max(x, 0)`. -/
def relu (x : S50000x128.Idx → Elt Ideal .f32) : S50000x128.Idx → Elt Ideal .f32 :=
  fun i => (FloatOps.maximumf (x i : Ideal .f32) (FloatOps.ofBits .f32 0x00000000#32) : Ideal .f32)

/-- Feature `k` of the gathered row that link `e` (an index of the `200000 × 1` score column) reads. -/
abbrev featAt (e : S200000x1.Idx) (k : Fin 128) : S200000x128.Idx := fun a => match a with
  | ⟨0, _⟩ => ⟨(e 0).val, (e 0).isLt⟩
  | ⟨1, _⟩ => ⟨k.val, k.isLt⟩

/-- The link score: the logistic function of the inner product of the two gathered rows of link `e`. -/
def score (a b : S200000x128.Idx → Elt Ideal .f32) : S200000x1.Idx → Elt Ideal .f32 :=
  fun e => (FloatOps.logistic ((∑ k : Fin 128, a (featAt e k) * b (featAt e k)) : Ideal .f32) : Ideal .f32)

end Cert.KernelIdeal.Spec

end
-- ==== Proof.Transform0.lean ====
import proofs.«166670_j33964601377214_1_alg».proof.Proof.Gen.KernelIdeal.Frame
import proofs.«166670_j33964601377214_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-! ## The block product at an index -/

/-- Both of the body's accesses start at the origin of their buffers. -/
theorem origin2 : (![0, 0] : Fin 2 → Nat) = fun _ => 0 := funext fun a => by fin_cases a <;> rfl

/-- The left factor of entry `j` of a block product keeps `j`'s row. -/
theorem blockDot_lhs_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and runs along the shared feature. -/
theorem blockDot_lhs_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
/-- The right factor runs down the shared feature … -/
theorem blockDot_rhs_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
/-- … in `j`'s column. -/
theorem blockDot_rhs_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Feature `k` of the row of a `5000 × 128` block that holds entry `j`. -/
abbrev blkRow (j : S5000x128.Idx) (k : Fin 128) : S5000x128.Idx := fun a => match a with
  | ⟨0, _⟩ => ⟨(j 0).val, (j 0).isLt⟩
  | ⟨1, _⟩ => ⟨k.val, k.isLt⟩
/-- Entry `k` of the weight column that entry `j` of the block product lies in. -/
abbrev wCol (j : S5000x128.Idx) (k : Fin 128) : S128x128.Idx := fun a => match a with
  | ⟨0, _⟩ => ⟨k.val, k.isLt⟩
  | ⟨1, _⟩ => ⟨(j 1).val, (j 1).isLt⟩

/-- Entry `j` of the body's result, from a block of rows `x` and the weights `w`: the row of `x` against the column of `w`,
    summed over the 128 shared features. Narrowing the operands changes nothing over the extended reals, and the
    accumulator starts at zero. -/
theorem pay0_apply (x : Vec Ideal S5000x128 .f32) (w : Vec Ideal S128x128 .f32) (j : S5000x128.Idx) :
    k0_pay1 (F := Ideal) x w j = ∑ k : Fin 128, x (blkRow j k) * w (wCol j k) := by
  unfold k0_pay1
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = blkRow j k := funext fun a => Fin.ext (by
    match a with
    | ⟨0, _⟩ => exact blockDot_lhs_0 _ _
    | ⟨1, _⟩ => exact (blockDot_lhs_1 _ _).trans hk)
  have er : dot_S5000x128_S128x128_S5000x128_1_0_0_1_n_n.rhsIdx j ((ValueIdx.contrEquiv1 dot_S5000x128_S128x128_S5000x128_1_0_0_1_n_n 128 rfl rfl).symm k) = wCol j k := funext fun a => Fin.ext (by
    match a with
    | ⟨0, _⟩ => exact (blockDot_rhs_0 _ _).trans hk
    | ⟨1, _⟩ => exact blockDot_rhs_1 _ _)
  rw [ValueIdx.truncf_apply, ValueIdx.truncf_apply, el, er]

/-! ## From the ten blocks to the array -/

/-- The printed index maps, decided over the ten grid points: point `t` reads row block `t` of `x`, always the one block
    of the weights, and writes row block `t` of the result. -/
theorem blockIdx0 : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- What point `t` writes back is row block `t` of `x · W₁`, `x` and `W₁` as the region finds them. -/
theorem flushed0_eq (c : Dev nD) (t : Fin cfg0.N) :
    (dat0 (F := Ideal) V c).flushed 2 t = ((cfg0.win 2).blk t).view.read (Elt Ideal) (Spec.dense (V c main_arg0) (V c main_arg3)) := by
  show (cfg0.win 2).cut (grid0.coords t) ((dat0 V c).after 2 t) = _
  rw [after0_2]
  unfold out0_2
  rw [View.canon_unit_zero origin2]
  simp only [View.ld_unit_zero (S := S5000x128) origin2, View.ld_unit_zero (S := S128x128) origin2]
  obtain ⟨o0, o1, x0, x1, w0, w1⟩ := blockIdx0 t
  funext j
  show k0_pay1 (F := Ideal) (iblk0 V c 0 t) (iblk0 V c 1 t) j = Spec.dense (V c main_arg0) (V c main_arg3) (((cfg0.win 2).blk t).view.emb j)
  rw [pay0_apply]
  unfold Spec.dense
  refine Finset.sum_congr rfl fun k _ => ?_
  have hj0 : (j 0).val < 5000 := (j 0).isLt
  have hj1 : (j 1).val < 128 := (j 1).isLt
  have hk : k.val < 128 := k.isLt
  have hx : iblk0 V c 0 t (blkRow j k) = V c main_arg0 (Spec.rowAt (((cfg0.win 2).blk t).view.emb j) k) := by
    show V c main_arg0 (((cfg0.win 0).blk t).view.emb (blkRow j k)) = _
    congr 1
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hw : iblk0 V c 1 t (wCol j k) = V c main_arg3 (Spec.colAt (((cfg0.win 2).blk t).view.emb j) k) := by
    show V c main_arg3 (((cfg0.win 1).blk t).view.emb (wCol j k)) = _
    congr 1
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [hx, hw]

/-- An index of the result is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row `r` of the result lies in the block of point `r / 5000`: the ten blocks cover the array. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, by show (i 0).val / 5000 < 10; omega⟩
  obtain ⟨o0, o1, -⟩ := blockIdx0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The first feature transform. Each of the ten grid points writes back rows `5000·t … 5000·t + 4999` of `x · W₁`: its block is the
    product of that block of rows of `x` with the whole of `W₁`, the two operands rounded to a narrower format first, which over
    the extended reals is no change, into an accumulator of zeros. The ten blocks tile the array, so after the region the
    result array is `x · W₁` entry by entry. -/
theorem transform0_value (c : Dev nD) :
    (dat0 (F := Ideal) V c).arrAt 2 cfg0.N = Spec.dense (V c main_arg0) (V c main_arg3) :=
  (dat0 (F := Ideal) V c).arrAt_eq_of_cover 2 (Spec.dense (V c main_arg0) (V c main_arg3)) (fun t _ => flushed0_eq V c t) cover0

end Cert.KernelIdeal.RegionValue

end
-- ==== Proof.FoldLayer1.lean ====
import proofs.«166670_j33964601377214_1_alg».proof.Proof.FoldEdges
import proofs.«166670_j33964601377214_1_alg».proof.Proof.Transform0

/-!
Across the first region and up to the second one's entry. The first region leaves `x · W₁` in its result array and every
other buffer as it found it; the host operations that follow gather its rows at the wrapped sources, scale each by the
edge's normalisation, add them up at the destinations and add the bias: the first layer's output, which is the
reference's own stage of the arguments once the kernel's ten block products are seen to be the reference's one product,
the same sum over the shared features at every entry.
-/

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.ReadP (val_main_v5 val_main_v6 val_main_v29 val_main_v30 val_main_v46)

variable (m : (ℓ : Loc nD τ sig) → Buf (Elt Ideal) ℓ) (ρ : Dev nD → PrngReg)

/-- The node features, the first layer's weights and its bias, as launched on core `c`. -/
abbrev feats (c : Dev nD) := m ((c.tc : Thread nD τ).loc main_arg0)
abbrev weights1 (c : Dev nD) := m ((c.tc : Thread nD τ).loc main_arg3)
abbrev bias1 (c : Dev nD) := m ((c.tc : Thread nD τ).loc main_arg4)

/-! ## The one product and the ten block products are one function -/

/-- The reference's product `x · W` is, entry by entry, the sum over the 128 shared features that the blocks compute. -/
theorem dense_eq_v30 (x : (⟨Cert.ReferenceIdeal.S50000x128, .f32⟩ : BufTy).Contents (Elt Ideal))
    (w : (⟨Cert.ReferenceIdeal.S128x128, .f32⟩ : BufTy).Contents (Elt Ideal)) :
    Spec.dense x w = val_main_v30 (F := Ideal) x w := by
  funext i
  rw [Cert.ReferenceIdeal.ReadP.val_main_v30_apply]
  rfl

/-! ## The arguments at the first region's entry are as launched -/

theorem W3_arg0 (c : Dev nD) : W3 (F := Ideal) m ρ c (Proc.devRef .tc main_arg0) = feats m c :=
  calc W3 m ρ c (Proc.devRef .tc main_arg0)
    _ = W2 m ρ c (Proc.devRef .tc main_arg0) := by untouched_by hostOps0_2
    _ = W1 m ρ c (Proc.devRef .tc main_arg0) := by untouched_by hostOps0_1
    _ = W0 m ρ c (Proc.devRef .tc main_arg0) := by untouched_by hostOps0
    _ = _ := rfl

theorem W3_arg3 (c : Dev nD) : W3 (F := Ideal) m ρ c (Proc.devRef .tc main_arg3) = weights1 m c :=
  calc W3 m ρ c (Proc.devRef .tc main_arg3)
    _ = W2 m ρ c (Proc.devRef .tc main_arg3) := by untouched_by hostOps0_2
    _ = W1 m ρ c (Proc.devRef .tc main_arg3) := by untouched_by hostOps0_1
    _ = W0 m ρ c (Proc.devRef .tc main_arg3) := by untouched_by hostOps0
    _ = _ := rfl

theorem W3_arg4 (c : Dev nD) : W3 (F := Ideal) m ρ c (Proc.devRef .tc main_arg4) = bias1 m c :=
  calc W3 m ρ c (Proc.devRef .tc main_arg4)
    _ = W2 m ρ c (Proc.devRef .tc main_arg4) := by untouched_by hostOps0_2
    _ = W1 m ρ c (Proc.devRef .tc main_arg4) := by untouched_by hostOps0_1
    _ = W0 m ρ c (Proc.devRef .tc main_arg4) := by untouched_by hostOps0
    _ = _ := rfl

/-! ## At the first region's exit -/

/-- The region's result array holds `x · W₁`, the reference's product of the launched features and weights. -/
theorem W4_v30 (c : Dev nD) :
    W4 (F := Ideal) m ρ c (Proc.devRef .tc main_v30) = val_main_v30 (F := Ideal) (feats m c) (weights1 m c) :=
  calc W4 m ρ c (Proc.devRef .tc main_v30)
    _ = (dat0 (F := Ideal) (V3 m ρ) c).arrAt 2 cfg0.N := W4_arr m ρ c 2
    _ = Spec.dense (V3 m ρ c main_arg0) (V3 m ρ c main_arg3) := RegionValue.transform0_value (V3 m ρ) c
    _ = Spec.dense (feats m c) (weights1 m c) := by
      rw [show V3 m ρ c main_arg0 = feats m c from W3_arg0 m ρ c, show V3 m ρ c main_arg3 = weights1 m c from W3_arg3 m ρ c]
    _ = _ := dense_eq_v30 _ _

/-- What the region does not stage it leaves alone: the columns, the normalisation, the bias. -/
theorem W4_v5 (c : Dev nD) : W4 (F := Ideal) m ρ c (Proc.devRef .tc main_v5) = val_main_v5 (F := Ideal) (edges m c) :=
  (W4_of_ne m ρ c main_v5 (by decide)).trans (W3_v5 m ρ c)
theorem W4_v6 (c : Dev nD) : W4 (F := Ideal) m ρ c (Proc.devRef .tc main_v6) = val_main_v6 (F := Ideal) (edges m c) :=
  (W4_of_ne m ρ c main_v6 (by decide)).trans (W3_v6 m ρ c)
theorem W4_v29 (c : Dev nD) : W4 (F := Ideal) m ρ c (Proc.devRef .tc main_v29) = val_main_v29 (F := Ideal) (edges m c) :=
  (W4_of_ne m ρ c main_v29 (by decide)).trans (W3_v29 m ρ c)
theorem W4_arg4 (c : Dev nD) : W4 (F := Ideal) m ρ c (Proc.devRef .tc main_arg4) = bias1 m c :=
  (W4_of_ne m ρ c main_arg4 (by decide)).trans (W3_arg4 m ρ c)

/-! ## At the second region's entry: the first layer's output -/

/-- The stretch between the two regions read over ANY contents below it that hold the product, the two columns, the
    normalisation and the bias: rows gathered at the wrapped sources, scaled edge by edge, summed at the destinations,
    the bias added to every row. -/
theorem read_v46 (Wlow : Valuation τ sig (Elt Ideal)) (e : Edges)
    (x : (⟨Cert.ReferenceIdeal.S50000x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (h30 : Wlow (Proc.devRef .tc main_v30) = val_main_v30 (F := Ideal) x w)
    (h5 : Wlow (Proc.devRef .tc main_v5) = val_main_v5 (F := Ideal) e)
    (h6 : Wlow (Proc.devRef .tc main_v6) = val_main_v6 (F := Ideal) e)
    (h29 : Wlow (Proc.devRef .tc main_v29) = val_main_v29 (F := Ideal) e)
    (hb : Wlow (Proc.devRef .tc main_arg4) = b) :
    StableHlo.after (hostOps1 (F := Ideal)) Wlow (Proc.devRef .tc main_v46) = val_main_v46 (F := Ideal) x e w b := by
  after_results_simp
  rw [show Wlow (Proc.devRef .tc main_v30) = val_main_v30 (F := Ideal) x w from h30,
      show Wlow (Proc.devRef .tc main_v5) = val_main_v5 (F := Ideal) e from h5,
      show Wlow (Proc.devRef .tc main_v6) = val_main_v6 (F := Ideal) e from h6,
      show Wlow (Proc.devRef .tc main_v29) = val_main_v29 (F := Ideal) e from h29,
      show Wlow (Proc.devRef .tc main_arg4) = b from hb]
  rfl

theorem W5_v46 (c : Dev nD) :
    W5 (F := Ideal) m ρ c (Proc.devRef .tc main_v46) = val_main_v46 (F := Ideal) (feats m c) (edges m c) (weights1 m c) (bias1 m c) :=
  read_v46 (W4 m ρ c) (edges m c) (feats m c) (weights1 m c) (bias1 m c)
    (W4_v30 m ρ c) (W4_v5 m ρ c) (W4_v6 m ρ c) (W4_v29 m ρ c) (W4_arg4 m ρ c)

end Cert.KernelIdeal.Fold

end
-- ==== Proof.Transform1.lean ====
import proofs.«166670_j33964601377214_1_alg».proof.Proof.Gen.KernelIdeal.Frame
import proofs.«166670_j33964601377214_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-! ## The rectified block product at an index -/

/-- Both of the body's accesses start at the origin of their buffers. -/
theorem originOff1 : (![0, 0] : Fin 2 → Nat) = fun _ => 0 := funext fun a => by fin_cases a <;> rfl

/-- The left factor of entry `j` of the second layer's block product keeps `j`'s row. -/
theorem layer2Dot_lhs_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and runs along the hidden feature. -/
theorem layer2Dot_lhs_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
/-- The right factor runs down the hidden feature … -/
theorem layer2Dot_rhs_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
/-- … in `j`'s column. -/
theorem layer2Dot_rhs_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Hidden feature `k` of the row of a `5000 × 128` block of activations that holds entry `j`. -/
abbrev actRow (j : S5000x128.Idx) (k : Fin 128) : S5000x128.Idx := fun a => match a with
  | ⟨0, _⟩ => ⟨(j 0).val, (j 0).isLt⟩
  | ⟨1, _⟩ => ⟨k.val, k.isLt⟩
/-- Entry `k` of the column of `W₂` that entry `j` of the block product lies in. -/
abbrev w2Col (j : S5000x128.Idx) (k : Fin 128) : S128x128.Idx := fun a => match a with
  | ⟨0, _⟩ => ⟨k.val, k.isLt⟩
  | ⟨1, _⟩ => ⟨(j 1).val, (j 1).isLt⟩

/-- Entry `j` of the product of a block of activations `a` with the weights `b`, accumulated from zero, whatever the formats
    of the two operands: the row of `a` against the column of `b`, summed over the 128 hidden features. -/
theorem layer2Dot_apply {φ₁ φ₂ : FTy} (a : FVec Ideal S5000x128 φ₁) (b : FVec Ideal S128x128 φ₂) (j : S5000x128.Idx) :
    FloatOps.matmul dot_S5000x128_S128x128_S5000x128_1_0_0_1_n_n none a b (constant S5000x128 .f32 0x00000000#32) j
      = ∑ k : Fin 128, a (actRow j k) * b (w2Col j k) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = actRow j k := funext fun a => Fin.ext (by
    match a with
    | ⟨0, _⟩ => exact layer2Dot_lhs_0 _ _
    | ⟨1, _⟩ => exact (layer2Dot_lhs_1 _ _).trans hk)
  have er : dot_S5000x128_S128x128_S5000x128_1_0_0_1_n_n.rhsIdx j ((ValueIdx.contrEquiv1 dot_S5000x128_S128x128_S5000x128_1_0_0_1_n_n 128 rfl rfl).symm k) = w2Col j k := funext fun a => Fin.ext (by
    match a with
    | ⟨0, _⟩ => exact (layer2Dot_rhs_0 _ _).trans hk
    | ⟨1, _⟩ => exact layer2Dot_rhs_1 _ _)
  rw [el, er]

/-- Entry `j` of the body's result, from a block of rows `z` and the weights `w`: the cast to the block's own shape and the two
    narrowings change nothing over the extended reals, so it is the block product of `max(z, 0)`, taken entry by entry, and `w`. -/
theorem pay1_apply (z : Vec Ideal S5000x128 .f32) (w : Vec Ideal S128x128 .f32) (j : S5000x128.Idx) :
    k1_pay1 (F := Ideal) z w j
      = ∑ k : Fin 128, (FloatOps.maximumf (z (actRow j k) : Ideal .f32) (FloatOps.ofBits .f32 0x00000000#32) : Ideal .f32) * w (w2Col j k) := by
  unfold k1_pay1
  simp only [matmul]
  rw [layer2Dot_apply]
  simp only [ValueIdx.truncf_apply, shapeCast_self]
  rfl

/-! ## From the ten blocks to the array -/

/-- The printed index maps, decided over the ten grid points: point `t` reads row block `t` of `z`, always the one block
    of `W₂`, and writes row block `t` of the result. -/
theorem blockIdx1 : ∀ t : Fin cfg1.N, win1_2.index t (0 : Fin 2) = t.val ∧ win1_2.index t (1 : Fin 2) = 0
    ∧ win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- What point `t` writes back is row block `t` of `max(z, 0) · W₂`, `z` and `W₂` as the region finds them. -/
theorem flushed1_eq (c : Dev nD) (t : Fin cfg1.N) :
    (dat1 (F := Ideal) V c).flushed 2 t = ((cfg1.win 2).blk t).view.read (Elt Ideal) (Spec.dense (Spec.relu (V c main_v46)) (V c main_arg5)) := by
  show (cfg1.win 2).cut (grid1.coords t) ((dat1 V c).after 2 t) = _
  rw [after1_2]
  unfold out1_2
  rw [View.canon_unit_zero originOff1]
  simp only [View.ld_unit_zero (S := S5000x128) originOff1, View.ld_unit_zero (S := S128x128) originOff1]
  obtain ⟨o0, o1, x0, x1, w0, w1⟩ := blockIdx1 t
  funext j
  show k1_pay1 (F := Ideal) (iblk1 V c 0 t) (iblk1 V c 1 t) j = Spec.dense (Spec.relu (V c main_v46)) (V c main_arg5) (((cfg1.win 2).blk t).view.emb j)
  rw [pay1_apply]
  unfold Spec.dense Spec.relu
  refine Finset.sum_congr rfl fun k _ => ?_
  have hj0 : (j 0).val < 5000 := (j 0).isLt
  have hj1 : (j 1).val < 128 := (j 1).isLt
  have hk : k.val < 128 := k.isLt
  have hz : iblk1 V c 0 t (actRow j k) = V c main_v46 (Spec.rowAt (((cfg1.win 2).blk t).view.emb j) k) := by
    show V c main_v46 (((cfg1.win 0).blk t).view.emb (actRow j k)) = _
    congr 1
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have hw : iblk1 V c 1 t (w2Col j k) = V c main_arg5 (Spec.colAt (((cfg1.win 2).blk t).view.emb j) k) := by
    show V c main_arg5 (((cfg1.win 1).blk t).view.emb (w2Col j k)) = _
    congr 1
    funext a; apply Fin.ext
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega
  rw [hz, hw]

/-- An index of the result is in point `t`'s block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- Row `r` of the result lies in the block of point `r / 5000`: the ten blocks cover the array. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  let t : Fin cfg1.N := ⟨(i 0).val / 5000, by show (i 0).val / 5000 < 10; omega⟩
  obtain ⟨o0, o1, -⟩ := blockIdx1 t
  have ht : t.val = (i 0).val / 5000 := rfl
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The second feature transform, the rectifier fused into its load: each grid point writes back its block of rows of
    `max(z, 0) · W₂`, `z` the first layer's output as the region finds it. The ten blocks tile the array. -/
theorem transform1_value (c : Dev nD) :
    (dat1 (F := Ideal) V c).arrAt 2 cfg1.N = Spec.dense (Spec.relu (V c main_v46)) (V c main_arg5) :=
  (dat1 (F := Ideal) V c).arrAt_eq_of_cover 2 (Spec.dense (Spec.relu (V c main_v46)) (V c main_arg5)) (fun t _ => flushed1_eq V c t) cover1

end Cert.KernelIdeal.RegionValue

end
-- ==== Proof.FoldLayer2.lean ====
import proofs.«166670_j33964601377214_1_alg».proof.Proof.FoldLayer1
import proofs.«166670_j33964601377214_1_alg».proof.Proof.Transform1

/-!
Across the second region. It leaves `max(z₁, 0) · W₂` in its result array, `z₁` the first layer's output, and every other
buffer as it found it. The reference rectifies `z₁` in a host call and then takes one product with `W₂`: entry by entry
the same sum over the shared features of the same rectified entries.
-/

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.ReadP (val_main_v5 val_main_v6 val_main_v29 val_main_v46 val_main_v47 val_main_v74)

variable (m : (ℓ : Loc nD τ sig) → Buf (Elt Ideal) ℓ) (ρ : Dev nD → PrngReg)

/-- The second layer's weights, as launched on core `c`. -/
abbrev weights2 (c : Dev nD) := m ((c.tc : Thread nD τ).loc main_arg5)

/-- The first layer's output as the reference's stage of the launched arguments. -/
abbrev layer1 (c : Dev nD) := val_main_v46 (F := Ideal) (feats m c) (edges m c) (weights1 m c) (bias1 m c)

/-! ## Rectify, then one product: the block products of the rectified rows -/

/-- The reference's rectified first layer, entry by entry: `max(z₁, 0)`. -/
theorem relu_eq_v47 (x : (⟨Cert.ReferenceIdeal.S50000x128, .f32⟩ : BufTy).Contents (Elt Ideal)) (e : Edges)
    (w : (⟨Cert.ReferenceIdeal.S128x128, .f32⟩ : BufTy).Contents (Elt Ideal))
    (b : (⟨Cert.ReferenceIdeal.S128, .f32⟩ : BufTy).Contents (Elt Ideal)) :
    Spec.relu (val_main_v46 (F := Ideal) x e w b) = val_main_v47 (F := Ideal) x e w b := by
  funext i
  rw [Cert.ReferenceIdeal.ReadP.val_main_v47_apply, Cert.ReferenceIdeal.ReadP.val_main_call1_v0_apply,
    Cert.ReferenceIdeal.ReadP.val_main_call1_cst_apply]
  rfl

/-- The reference's second product is, entry by entry, the sum that the second region's blocks compute. -/
theorem dense_relu_eq_v74 (x : (⟨Cert.ReferenceIdeal.S50000x128, .f32⟩ : BufTy).Contents (Elt Ideal)) (e : Edges)
    (w : (⟨Cert.ReferenceIdeal.S128x128, .f32⟩ : BufTy).Contents (Elt Ideal))
    (b : (⟨Cert.ReferenceIdeal.S128, .f32⟩ : BufTy).Contents (Elt Ideal))
    (w2 : (⟨Cert.ReferenceIdeal.S128x128, .f32⟩ : BufTy).Contents (Elt Ideal)) :
    Spec.dense (Spec.relu (val_main_v46 (F := Ideal) x e w b)) w2 = val_main_v74 (F := Ideal) x e w b w2 := by
  rw [relu_eq_v47]
  funext i
  rw [Cert.ReferenceIdeal.ReadP.val_main_v74_apply]
  rfl

/-! ## The second layer's weights at the second region's entry are as launched -/

theorem W5_arg5 (c : Dev nD) : W5 (F := Ideal) m ρ c (Proc.devRef .tc main_arg5) = weights2 m c :=
  calc W5 m ρ c (Proc.devRef .tc main_arg5)
    _ = W4 m ρ c (Proc.devRef .tc main_arg5) := by untouched_by hostOps1
    _ = W3 m ρ c (Proc.devRef .tc main_arg5) := W4_of_ne m ρ c main_arg5 (by decide)
    _ = W2 m ρ c (Proc.devRef .tc main_arg5) := by untouched_by hostOps0_2
    _ = W1 m ρ c (Proc.devRef .tc main_arg5) := by untouched_by hostOps0_1
    _ = W0 m ρ c (Proc.devRef .tc main_arg5) := by untouched_by hostOps0
    _ = _ := rfl

/-! ## At the second region's exit -/

/-- The region's result array holds the reference's second product. -/
theorem W6_v47 (c : Dev nD) :
    W6 (F := Ideal) m ρ c (Proc.devRef .tc main_v47)
      = val_main_v74 (F := Ideal) (feats m c) (edges m c) (weights1 m c) (bias1 m c) (weights2 m c) :=
  calc W6 m ρ c (Proc.devRef .tc main_v47)
    _ = (dat1 (F := Ideal) (V5 m ρ) c).arrAt 2 cfg1.N := W6_arr m ρ c 2
    _ = Spec.dense (Spec.relu (V5 m ρ c main_v46)) (V5 m ρ c main_arg5) := RegionValue.transform1_value (V5 m ρ) c
    _ = Spec.dense (Spec.relu (layer1 m c)) (weights2 m c) := by
      rw [show V5 m ρ c main_v46 = layer1 m c from W5_v46 m ρ c, show V5 m ρ c main_arg5 = weights2 m c from W5_arg5 m ρ c]
    _ = _ := dense_relu_eq_v74 _ _ _ _ _

/-- The columns and the normalisation reach the second region's exit as they were. -/
theorem W6_v5 (c : Dev nD) : W6 (F := Ideal) m ρ c (Proc.devRef .tc main_v5) = val_main_v5 (F := Ideal) (edges m c) :=
  calc W6 m ρ c (Proc.devRef .tc main_v5)
    _ = W5 m ρ c (Proc.devRef .tc main_v5) := W6_of_ne m ρ c main_v5 (by decide)
    _ = W4 m ρ c (Proc.devRef .tc main_v5) := by untouched_by hostOps1
    _ = _ := W4_v5 m ρ c
theorem W6_v6 (c : Dev nD) : W6 (F := Ideal) m ρ c (Proc.devRef .tc main_v6) = val_main_v6 (F := Ideal) (edges m c) :=
  calc W6 m ρ c (Proc.devRef .tc main_v6)
    _ = W5 m ρ c (Proc.devRef .tc main_v6) := W6_of_ne m ρ c main_v6 (by decide)
    _ = W4 m ρ c (Proc.devRef .tc main_v6) := by untouched_by hostOps1
    _ = _ := W4_v6 m ρ c
theorem W6_v29 (c : Dev nD) : W6 (F := Ideal) m ρ c (Proc.devRef .tc main_v29) = val_main_v29 (F := Ideal) (edges m c) :=
  calc W6 m ρ c (Proc.devRef .tc main_v29)
    _ = W5 m ρ c (Proc.devRef .tc main_v29) := W6_of_ne m ρ c main_v29 (by decide)
    _ = W4 m ρ c (Proc.devRef .tc main_v29) := by untouched_by hostOps1
    _ = _ := W4_v29 m ρ c

end Cert.KernelIdeal.Fold

end
-- ==== Proof.Recomputed.lean ====
import proofs.«166670_j33964601377214_1_alg».proof.Proof.RefReadP

/-!
The reference builds the edge columns with their self-loops, the in-degree and the symmetric normalisation afresh in
each of its two layers, from the same edge list by the same operations. The second computation is the first one: the
same function of the edge list.
-/

set_option maxRecDepth 16384

noncomputable section

namespace Cert.ReferenceIdeal.Recomputed

open Cert.ReferenceIdeal Cert.ReferenceIdeal.ReadP Idealize.ShloMosaic

variable {F : FTy → Type} [FloatOps F]

/-- The second layer's source column is the first layer's. -/
theorem v49_eq_v5 (e : (⟨S2x800000, .i32⟩ : BufTy).Contents (Elt F)) : val_main_v49 (F := F) e = val_main_v5 (F := F) e := rfl

/-- The second layer's destination column is the first layer's. -/
theorem v50_eq_v6 (e : (⟨S2x800000, .i32⟩ : BufTy).Contents (Elt F)) : val_main_v50 (F := F) e = val_main_v6 (F := F) e := rfl

/-- The second layer's normalisation is the first layer's. -/
theorem v73_eq_v29 (e : (⟨S2x800000, .i32⟩ : BufTy).Contents (Elt F)) : val_main_v73 (F := F) e = val_main_v29 (F := F) e := rfl

end Cert.ReferenceIdeal.Recomputed

end
-- ==== Proof.FoldDecodeEntry.lean ====
import proofs.«166670_j33964601377214_1_alg».proof.Proof.FoldLayer2
import proofs.«166670_j33964601377214_1_alg».proof.Proof.Recomputed

/-!
Up to the decoder's entry. The stretch after the second region is the second layer's aggregation, by the first layer's
operations over the second product and the second bias, followed by the two gathers of its rows at the label edges'
endpoints, a negative endpoint wrapped by the node count. The reference builds the columns and the normalisation anew
for its second layer; they are the first layer's (the same function of the edge list), and the hypotheses below carry
them under the second layer's names so that each read meets the reference's stage as it is written.
-/

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.ReadP (val_main_v5 val_main_v6 val_main_v29 val_main_v49 val_main_v50 val_main_v73 val_main_v74
  val_main_v101 val_main_v108)
open Cert.ReferenceIdeal.Recomputed (v49_eq_v5 v50_eq_v6 v73_eq_v29)

variable (m : (ℓ : Loc nD τ sig) → Buf (Elt Ideal) ℓ) (ρ : Dev nD → PrngReg)

/-- The second layer's bias and the label edges, as launched on core `c`. -/
abbrev bias2 (c : Dev nD) := m ((c.tc : Thread nD τ).loc main_arg6)
abbrev labelEdges (c : Dev nD) := m ((c.tc : Thread nD τ).loc main_arg2)

/-- The types of the reference's arguments, as its stages take them. -/
abbrev Feats := (⟨Cert.ReferenceIdeal.S50000x128, .f32⟩ : BufTy).Contents (Elt Ideal)
abbrev Weights := (⟨Cert.ReferenceIdeal.S128x128, .f32⟩ : BufTy).Contents (Elt Ideal)
abbrev Bias := (⟨Cert.ReferenceIdeal.S128, .f32⟩ : BufTy).Contents (Elt Ideal)
abbrev LabelEdges := (⟨Cert.ReferenceIdeal.S2x200000, .i32⟩ : BufTy).Contents (Elt Ideal)

/-! ## The stretch read at the two gathered arrays -/

/-- The rows of the second layer's output at the label edges' first endpoints, over ANY contents below the stretch that
    hold the second product, the columns, the normalisation, the second bias and the label edges. -/
theorem read_v74 (Wlow : Valuation τ sig (Elt Ideal)) (x : Feats) (e : Edges) (l : LabelEdges) (w : Weights) (b : Bias) (w2 : Weights) (b2 : Bias)
    (h47 : Wlow (Proc.devRef .tc main_v47) = val_main_v74 (F := Ideal) x e w b w2)
    (h5 : Wlow (Proc.devRef .tc main_v5) = val_main_v49 (F := Ideal) e)
    (h6 : Wlow (Proc.devRef .tc main_v6) = val_main_v50 (F := Ideal) e)
    (h29 : Wlow (Proc.devRef .tc main_v29) = val_main_v73 (F := Ideal) e)
    (hb : Wlow (Proc.devRef .tc main_arg6) = b2)
    (hl : Wlow (Proc.devRef .tc main_arg2) = l) :
    StableHlo.after (hostOps2 (F := Ideal)) Wlow (Proc.devRef .tc main_v74) = val_main_v101 (F := Ideal) x e l w b w2 b2 := by
  after_results_simp
  rw [show Wlow (Proc.devRef .tc main_v47) = val_main_v74 (F := Ideal) x e w b w2 from h47,
      show Wlow (Proc.devRef .tc main_v5) = val_main_v49 (F := Ideal) e from h5,
      show Wlow (Proc.devRef .tc main_v6) = val_main_v50 (F := Ideal) e from h6,
      show Wlow (Proc.devRef .tc main_v29) = val_main_v73 (F := Ideal) e from h29,
      show Wlow (Proc.devRef .tc main_arg6) = b2 from hb,
      show Wlow (Proc.devRef .tc main_arg2) = l from hl]
  rfl

/-- The rows at the label edges' second endpoints, likewise. -/
theorem read_v81 (Wlow : Valuation τ sig (Elt Ideal)) (x : Feats) (e : Edges) (l : LabelEdges) (w : Weights) (b : Bias) (w2 : Weights) (b2 : Bias)
    (h47 : Wlow (Proc.devRef .tc main_v47) = val_main_v74 (F := Ideal) x e w b w2)
    (h5 : Wlow (Proc.devRef .tc main_v5) = val_main_v49 (F := Ideal) e)
    (h6 : Wlow (Proc.devRef .tc main_v6) = val_main_v50 (F := Ideal) e)
    (h29 : Wlow (Proc.devRef .tc main_v29) = val_main_v73 (F := Ideal) e)
    (hb : Wlow (Proc.devRef .tc main_arg6) = b2)
    (hl : Wlow (Proc.devRef .tc main_arg2) = l) :
    StableHlo.after (hostOps2 (F := Ideal)) Wlow (Proc.devRef .tc main_v81) = val_main_v108 (F := Ideal) x e l w b w2 b2 := by
  after_results_simp
  rw [show Wlow (Proc.devRef .tc main_v47) = val_main_v74 (F := Ideal) x e w b w2 from h47,
      show Wlow (Proc.devRef .tc main_v5) = val_main_v49 (F := Ideal) e from h5,
      show Wlow (Proc.devRef .tc main_v6) = val_main_v50 (F := Ideal) e from h6,
      show Wlow (Proc.devRef .tc main_v29) = val_main_v73 (F := Ideal) e from h29,
      show Wlow (Proc.devRef .tc main_arg6) = b2 from hb,
      show Wlow (Proc.devRef .tc main_arg2) = l from hl]
  rfl

/-! ## The second bias and the label edges at the second region's exit are as launched -/

theorem W6_arg6 (c : Dev nD) : W6 (F := Ideal) m ρ c (Proc.devRef .tc main_arg6) = bias2 m c :=
  calc W6 m ρ c (Proc.devRef .tc main_arg6)
    _ = W5 m ρ c (Proc.devRef .tc main_arg6) := W6_of_ne m ρ c main_arg6 (by decide)
    _ = W4 m ρ c (Proc.devRef .tc main_arg6) := by untouched_by hostOps1
    _ = W3 m ρ c (Proc.devRef .tc main_arg6) := W4_of_ne m ρ c main_arg6 (by decide)
    _ = W2 m ρ c (Proc.devRef .tc main_arg6) := by untouched_by hostOps0_2
    _ = W1 m ρ c (Proc.devRef .tc main_arg6) := by untouched_by hostOps0_1
    _ = W0 m ρ c (Proc.devRef .tc main_arg6) := by untouched_by hostOps0
    _ = _ := rfl

theorem W6_arg2 (c : Dev nD) : W6 (F := Ideal) m ρ c (Proc.devRef .tc main_arg2) = labelEdges m c :=
  calc W6 m ρ c (Proc.devRef .tc main_arg2)
    _ = W5 m ρ c (Proc.devRef .tc main_arg2) := W6_of_ne m ρ c main_arg2 (by decide)
    _ = W4 m ρ c (Proc.devRef .tc main_arg2) := by untouched_by hostOps1
    _ = W3 m ρ c (Proc.devRef .tc main_arg2) := W4_of_ne m ρ c main_arg2 (by decide)
    _ = W2 m ρ c (Proc.devRef .tc main_arg2) := by untouched_by hostOps0_2
    _ = W1 m ρ c (Proc.devRef .tc main_arg2) := by untouched_by hostOps0_1
    _ = W0 m ρ c (Proc.devRef .tc main_arg2) := by untouched_by hostOps0
    _ = _ := rfl

/-! ## At the decoder's entry -/

theorem W7_v74 (c : Dev nD) :
    W7 (F := Ideal) m ρ c (Proc.devRef .tc main_v74)
      = val_main_v101 (F := Ideal) (feats m c) (edges m c) (labelEdges m c) (weights1 m c) (bias1 m c) (weights2 m c) (bias2 m c) :=
  read_v74 (W6 m ρ c) (feats m c) (edges m c) (labelEdges m c) (weights1 m c) (bias1 m c) (weights2 m c) (bias2 m c)
    (W6_v47 m ρ c) ((W6_v5 m ρ c).trans (v49_eq_v5 _).symm) ((W6_v6 m ρ c).trans (v50_eq_v6 _).symm)
    ((W6_v29 m ρ c).trans (v73_eq_v29 _).symm) (W6_arg6 m ρ c) (W6_arg2 m ρ c)

theorem W7_v81 (c : Dev nD) :
    W7 (F := Ideal) m ρ c (Proc.devRef .tc main_v81)
      = val_main_v108 (F := Ideal) (feats m c) (edges m c) (labelEdges m c) (weights1 m c) (bias1 m c) (weights2 m c) (bias2 m c) :=
  read_v81 (W6 m ρ c) (feats m c) (edges m c) (labelEdges m c) (weights1 m c) (bias1 m c) (weights2 m c) (bias2 m c)
    (W6_v47 m ρ c) ((W6_v5 m ρ c).trans (v49_eq_v5 _).symm) ((W6_v6 m ρ c).trans (v50_eq_v6 _).symm)
    ((W6_v29 m ρ c).trans (v73_eq_v29 _).symm) (W6_arg6 m ρ c) (W6_arg2 m ρ c)

end Cert.KernelIdeal.Fold

end
-- ==== Proof.Decode.lean ====
import proofs.«166670_j33964601377214_1_alg».proof.Proof.Gen.KernelIdeal.Frame
import proofs.«166670_j33964601377214_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The two zero offsets of a whole-block access, as the constant function. -/
theorem offsets_zero : (![0, 0] : Fin 2 → Nat) = fun _ => 0 := funext fun a => by fin_cases a <;> rfl

/-- A vector of length `a` viewed as an `a × 1` column reads, at row `i`, the vector's entry `i`: both sit at row-major position `i`. -/
theorem column_cast_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- The sum along the 128 lanes of a `5000 × 128` block, read at row `r`: the accumulator's initial word is zero, so it is the
    plain sum of the row's entries. -/
theorem lane_sum_apply (src : FVec Ideal S5000x128 .f32) (r : Fin 5000) :
    multiReduction (F := Ideal) .add [1] S5000 src 0x00000000#32 reduces_S5000x128_S5000 (.inl rfl) rfl (ix1 r)
      = ∑ k : Fin 128, src (ix2 r k) := by
  refine (Ideal.multiReduction_add_single src 0x00000000#32 reduces_S5000x128_S5000 (.inl rfl) rfl (ix1 r)).trans ?_
  show ∑ k : Fin 128, src (reduces_S5000x128_S5000.lift (ix1 r) k) = _
  refine Finset.sum_congr rfl fun k _ => congrArg src ?_
  funext c
  apply Fin.ext
  match c with
  | ⟨0, _⟩ => rfl
  | ⟨1, _⟩ => rfl

/-- The body's value at row `r` of its `5000 × 1` result: the logistic function of the inner product of row `r` of the two loaded blocks. -/
theorem payload_apply (x0 x1 : Vec Ideal S5000x128 .f32) (r : Fin 5000) (u : Fin 1) :
    k2_pay1 (F := Ideal) x0 x1 (ix2 r u)
      = (FloatOps.logistic ((∑ k : Fin 128, x0 (ix2 r k) * x1 (ix2 r k)) : Ideal .f32) : Ideal .f32) := by
  unfold k2_pay1
  show FloatOps.logistic (shapeCast S5000x1 (multiReduction (F := Ideal) .add [1] S5000 (mulf (F := Ideal) (shapeCast S5000x128 x0 shapeCasts_S5000x128_S5000x128) (shapeCast S5000x128 x1 shapeCasts_S5000x128_S5000x128)) 0x00000000#32 reduces_S5000x128_S5000 (.inl rfl) rfl) shapeCasts_S5000_S5000x1 (ix2 r u)) = _
  refine congrArg FloatOps.logistic ?_
  refine (column_cast_apply _ shapeCasts_S5000_S5000x1 r u).trans ?_
  refine (lane_sum_apply _ r).trans ?_
  refine Finset.sum_congr rfl fun k _ => ?_
  rw [mulf_apply, shapeCast_self, shapeCast_self]

/-- Entry `k` of the row of a `5000 × 128` block that index `y` of the `5000 × 1` result block lies in. -/
abbrev rowEntry (y : S5000x1.Idx) (k : Fin 128) : S5000x128.Idx := fun a => match a with
  | ⟨0, _⟩ => ⟨(y 0).val, (y 0).isLt⟩
  | ⟨1, _⟩ => ⟨k.val, k.isLt⟩

/-- The body's value at any index `y` of its result block: the logistic function of the inner product of the two loaded blocks' rows
    through `y`. -/
theorem payload_at (x0 x1 : Vec Ideal S5000x128 .f32) (y : S5000x1.Idx) :
    k2_pay1 (F := Ideal) x0 x1 y
      = (FloatOps.logistic ((∑ k : Fin 128, x0 (rowEntry y k) * x1 (rowEntry y k)) : Ideal .f32) : Ideal .f32) := by
  obtain ⟨r, u, rfl⟩ : ∃ (r : Fin 5000) (u : Fin 1), y = ix2 r u := ⟨y 0, y 1, eq_ix2 y⟩
  refine (payload_apply x0 x1 r u).trans ?_
  have hrow : ∀ k : Fin 128, rowEntry (ix2 r u) k = ix2 r k := fun k => funext fun a => by
    match a with
    | ⟨0, _⟩ => rfl
    | ⟨1, _⟩ => rfl
  simp only [hrow]

/-- When row `y` of the two loaded blocks holds the two gathered rows of link `e`, the body's value at `y` is the score of link `e`. -/
theorem score_of_rows (A B : S200000x128.Idx → Elt Ideal .f32) (x0 x1 : Vec Ideal S5000x128 .f32) (y : S5000x1.Idx)
    (e : S200000x1.Idx) (h0 : ∀ k : Fin 128, x0 (rowEntry y k) = A (Spec.featAt e k))
    (h1 : ∀ k : Fin 128, x1 (rowEntry y k) = B (Spec.featAt e k)) :
    k2_pay1 (F := Ideal) x0 x1 y = Spec.score A B e := by
  refine (payload_at x0 x1 y).trans ?_
  show _ = (FloatOps.logistic ((∑ k : Fin 128, A (Spec.featAt e k) * B (Spec.featAt e k)) : Ideal .f32) : Ideal .f32)
  refine congrArg FloatOps.logistic (Finset.sum_congr rfl fun k _ => ?_)
  rw [h0 k, h1 k]

/-- The printed index maps, decided once over the forty grid points: at point `t` the output window and both input windows sit at
    block `t` along the rows and at block `0` along the columns. -/
theorem block_indices : ∀ t : Fin cfg2.N,
    win2_2.index t (0 : Fin 2) = t.val ∧ win2_2.index t (1 : Fin 2) = 0
    ∧ win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- What grid point `t` writes back is block `t` of the link score of the two gathered arrays as the region finds them: the rows the
    two input blocks hold are the rows the output block's links name. -/
theorem flushed_block (c : Dev nD) (t : Fin cfg2.N) :
    (dat2 (F := Ideal) V c).flushed 2 t
      = ((cfg2.win 2).blk t).view.read (Elt Ideal) (Spec.score (V c main_v74) (V c main_v81)) := by
  show (cfg2.win 2).cut (grid2.coords t) ((dat2 V c).after 2 t) = _
  rw [after2_2]
  unfold out2_2
  rw [View.canon_unit_zero offsets_zero]
  simp only [View.ld_unit_zero (S := S5000x128) offsets_zero]
  obtain ⟨e0, e1, e2, e3, e4, e5⟩ := block_indices t
  funext j
  show k2_pay1 (F := Ideal) (iblk2 V c 0 t) (iblk2 V c 1 t) j
    = Spec.score (V c main_v74) (V c main_v81) (((cfg2.win 2).blk t).view.emb j)
  refine score_of_rows (V c main_v74) (V c main_v81) (iblk2 V c 0 t) (iblk2 V c 1 t) j (((cfg2.win 2).blk t).view.emb j)
    (fun k => ?_) (fun k => ?_)
  · show V c main_v74 (((cfg2.win 0).blk t).view.emb (rowEntry j k)) = V c main_v74 (Spec.featAt (((cfg2.win 2).blk t).view.emb j) k)
    refine congrArg _ ?_
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · show V c main_v81 (((cfg2.win 1).blk t).view.emb (rowEntry j k)) = V c main_v81 (Spec.featAt (((cfg2.win 2).blk t).view.emb j) k)
    refine congrArg _ ?_
    funext a; apply Fin.ext
    match a with
    | ⟨0, _⟩ => show win2_1.index t (0 : Fin 2) * 5000 + 1 * (j 0).val = win2_2.index t (0 : Fin 2) * 5000 + 1 * (j 0).val; omega
    | ⟨1, _⟩ => show win2_1.index t (1 : Fin 2) * 128 + 1 * k.val = k.val; omega

/-- A link of the score column is in point `t`'s block iff each of its coordinates is in the block's range on that axis. -/
theorem mem_block (t : Fin cfg2.N) (i : S200000x1.Idx) :
    i ∈ ((cfg2.win 2).blk t).view.set
      ↔ ∀ a : Fin 2, win2_2.index t a * S5000x1.size a ≤ (i a).val ∧ (i a).val < win2_2.index t a * S5000x1.size a + S5000x1.size a := by
  show i ∈ ((View.whole main_v82).slice (win2_2.rect t)).set ↔ _
  rw [View.set_slice_whole, Rect.mem_set_unit]
  exact Iff.rfl

/-- The forty blocks tile the column: link `e` lies in the block of point `e / 5000`, which is written back. -/
theorem blocks_cover (i : S200000x1.Idx) :
    ∃ t : Fin cfg2.N, (cfg2.win 2).flush t = true ∧ i ∈ ((cfg2.win 2).blk t).view.set := by
  have hi0 : (i 0).val < 200000 := (i 0).isLt
  have hi1 : (i 1).val < 1 := (i 1).isLt
  have hN : cfg2.N = 40 := N_2
  obtain ⟨t, ht⟩ : ∃ t : Fin cfg2.N, t.val = (i 0).val / 5000 := ⟨⟨(i 0).val / 5000, by rw [hN]; omega⟩, rfl⟩
  obtain ⟨e0, e1, -⟩ := block_indices t
  refine ⟨t, flush2_2 t, ?_⟩
  rw [mem_block]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 1 ≤ (i 1).val ∧ (i 1).val < win2_2.index t (1 : Fin 2) * 1 + 1
    omega

/-- The decoder. Each of the forty grid points writes back links `5000·t … 5000·t + 4999` of the score column: the logistic
    function of the sum over the 128 features of the product of the two gathered rows. The forty blocks tile the column. -/
theorem decode_value (c : Dev nD) :
    (dat2 (F := Ideal) V c).arrAt 2 cfg2.N = Spec.score (V c main_v74) (V c main_v81) :=
  (dat2 (F := Ideal) V c).arrAt_eq_of_cover 2 (Spec.score (V c main_v74) (V c main_v81))
    (fun t _ => flushed_block V c t) blocks_cover

end Cert.KernelIdeal.RegionValue

end
-- ==== Proof.LogisticLaw.lean ====
import Idealize.ShloMosaic.PureOps.Ideal
import Idealize.ShloMosaic.PureOps.Ideal.Laws

/-!
The logistic function over the extended reals, `σ(s) = 1 / (1 + e^{−s})` with `σ(−∞) = 0` and `σ(+∞) = 1`, against the
same expression written out in host operations from the single-precision words for one and zero: divide one by one plus
the exponential of minus (zero plus `s`). The two agree at every extended real `s`.
-/

noncomputable section

namespace Cert.LogisticLaw

open Idealize.ShloMosaic

/-- The single-precision word `0x3F800000` is the number one: sign 0, exponent field 127, mantissa 0. -/
theorem one_word : Ideal.ofBits .f32 0x3F800000#32 = 1 := by
  simp [Ideal.ofBits, Ideal.ieee, -EReal.coe_mul]; norm_num

/-- With `one` the number one and `zero` the number zero, the written-out expression is the logistic function of `s`:
    `0 + s = s` at every extended real, and the rest is the logistic function's definition. -/
theorem logistic_written_out (s one zero : Ideal .f32) (h1 : one = 1) (h0 : zero = 0) :
    (FloatOps.logistic s : Ideal .f32)
      = FloatOps.hostDivf one (FloatOps.addf one (FloatOps.hostUnary .exp (FloatOps.hostNegf (zero + s)))) := by
  subst h1 h0
  rw [zero_add]
  rfl

/-- The same from the two words. -/
theorem logistic_of_words (s : Ideal .f32) :
    (FloatOps.logistic s : Ideal .f32)
      = FloatOps.hostDivf (FloatOps.ofBits .f32 0x3F800000#32) (FloatOps.addf (FloatOps.ofBits .f32 0x3F800000#32)
          (FloatOps.hostUnary .exp (FloatOps.hostNegf (FloatOps.ofBits .f32 0x00000000#32 + s)))) :=
  logistic_written_out s _ _ one_word Ideal.ofBits_zero_f32

end Cert.LogisticLaw

end
-- ==== Proof.ScoreLaw.lean ====
import proofs.«166670_j33964601377214_1_alg».proof.Proof.RefReadP
import proofs.«166670_j33964601377214_1_alg».proof.Proof.Spec
import proofs.«166670_j33964601377214_1_alg».proof.Proof.LogisticLaw
import Idealize.ShloMosaic.Lib.Pipeline.Value
import Idealize.ShloMosaic.Lib.ValueIdx

/-!
The reference's last seven operations over ANY two gathered arrays `a`, `b` of shape `200000 × 128`: multiply them
entry by entry, sum each row from zero, negate, exponentiate, add one, divide one by the result. Entry `r` of what they
leave is `1 / (1 + e^{−(0 + ∑ₖ a[r,k]·b[r,k])})`, the logistic function of the inner product of the two rows `r`: the
decoder's score of link `r`. Stated over arbitrary arrays so that nothing the arrays are made of enters the argument.
-/

set_option maxRecDepth 16384

noncomputable section

namespace Cert.ReferenceIdeal.ScoreLaw

open Cert.ReferenceIdeal Cert.ReferenceIdeal.Gen Idealize.ShloMosaic Idealize.ShloMosaic.ValueIdx

/-- The reference's tail as one function of the two gathered arrays. -/
def tail (a b : (⟨S200000x128, .f32⟩ : BufTy).Contents (Elt Ideal)) : (⟨S200000, .f32⟩ : BufTy).Contents (Elt Ideal) :=
  Host.divf (broadcastInDim S200000 ![] bcast_S_S200000 (constant (F := Ideal) S_ .f32 0x3F800000#32))
    (addf (broadcastInDim S200000 ![] bcast_S_S200000 (constant (F := Ideal) S_ .f32 0x3F800000#32))
      (Host.exp (Host.negf (Host.reduceAdd (mulf a b) (constant (F := Ideal) S_ .f32 0x00000000#32) reducesTo_S200000x128_S200000_d1 h_S_))))

/-- Entry `k` of row `r`. -/
abbrev entry (r : Fin 200000) (k : Fin 128) : S200000x128.Idx := fun d => match d with
  | ⟨0, _⟩ => ⟨r.val, r.isLt⟩
  | ⟨1, _⟩ => ⟨k.val, k.isLt⟩

/-- The row sum from zero, read at row `r`: zero plus the sum of the row's 128 entries. -/
theorem rowSum_apply (y : (⟨S200000x128, .f32⟩ : BufTy).Contents (Elt Ideal)) (r : Fin 200000) :
    Host.reduceAdd y (constant (F := Ideal) S_ .f32 0x00000000#32) reducesTo_S200000x128_S200000_d1 h_S_ (ix1 r)
      = (FloatOps.ofBits .f32 0x00000000#32 : Ideal .f32) + ∑ k : Fin 128, y (entry r k) := by
  simp only [Host.reduceAdd, Ideal.hostReduceAdd_def]
  rw [Ideal.hostReduceAdd_single reducesTo_S200000x128_S200000_d1 (by decide)]
  refine congrArg (_ + ·) (Finset.sum_congr rfl fun k _ => ?_)
  exact congrArg y (funext fun d => Fin.ext (by match d with | ⟨0, _⟩ => rfl | ⟨1, _⟩ => rfl))

/-- The constant one spread over the `200000` links, read at a link: the word for one. -/
theorem ones_apply (i : S200000.Idx) :
    broadcastInDim S200000 ![] bcast_S_S200000 (constant (F := Ideal) S_ .f32 0x3F800000#32) i
      = (FloatOps.ofBits .f32 0x3F800000#32 : Ideal .f32) := by
  refine (broadcastInDim_apply _ bcast_S_S200000 (constant (F := Ideal) S_ .f32 0x3F800000#32) i (fun d => d.elim0) (fun d => d.elim0)).trans ?_
  rfl

/-- Entry `r` of the reference's tail is the logistic function of the inner product of rows `r` of the two arrays. -/
theorem tail_apply (a b : (⟨S200000x128, .f32⟩ : BufTy).Contents (Elt Ideal)) (r : Fin 200000) :
    tail a b (ix1 r) = (FloatOps.logistic ((∑ k : Fin 128, a (entry r k) * b (entry r k)) : Ideal .f32) : Ideal .f32) := by
  show FloatOps.hostDivf (broadcastInDim S200000 ![] bcast_S_S200000 (constant (F := Ideal) S_ .f32 0x3F800000#32) (ix1 r))
      (FloatOps.addf (broadcastInDim S200000 ![] bcast_S_S200000 (constant (F := Ideal) S_ .f32 0x3F800000#32) (ix1 r))
        (FloatOps.hostUnary .exp (FloatOps.hostNegf
          (Host.reduceAdd (mulf a b) (constant (F := Ideal) S_ .f32 0x00000000#32) reducesTo_S200000x128_S200000_d1 h_S_ (ix1 r))))) = _
  rw [ones_apply, rowSum_apply]
  exact (Cert.LogisticLaw.logistic_of_words _).symm

/-- The reference's result stage is its tail applied to its two gathered stages: the last stages' definitions, opened. -/
theorem v116_eq_tail (x0 : (⟨S50000x128, .f32⟩ : BufTy).Contents (Elt Ideal)) (x1 : (⟨S2x800000, .i32⟩ : BufTy).Contents (Elt Ideal))
    (x2 : (⟨S2x200000, .i32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) :
    ReadP.val_main_v116 (F := Ideal) x0 x1 x2 x3 x4 x5 x6
      = tail (ReadP.val_main_v101 (F := Ideal) x0 x1 x2 x3 x4 x5 x6) (ReadP.val_main_v108 (F := Ideal) x0 x1 x2 x3 x4 x5 x6) := by
  unfold ReadP.val_main_v116 ReadP.val_main_v115 ReadP.val_main_v114 ReadP.val_main_v113 ReadP.val_main_v112 ReadP.val_main_v111
    ReadP.val_main_v110 ReadP.val_main_v109 ReadP.val_main_cst_24 ReadP.val_main_cst_25 ReadP.val_main_cst_26 tail
  rfl

end Cert.ReferenceIdeal.ScoreLaw

end
-- ==== Proof.FoldResult.lean ====
import proofs.«166670_j33964601377214_1_alg».proof.Proof.FoldDecodeEntry
import proofs.«166670_j33964601377214_1_alg».proof.Proof.Decode
import Idealize.ShloMosaic.Lib.Pipeline.Value
import Idealize.ShloMosaic.Lib.ValueIdx
import proofs.«166670_j33964601377214_1_alg».proof.Proof.ScoreLaw

/-!
Across the decoder and to the result. The third region leaves in its column, for every label edge, the logistic function
of the inner product of the two gathered rows; the program's last operation lays that `200000 × 1` column out as a vector.
The reference sums the products of the two gathered rows along the features, from zero, and then writes the logistic
function out: negate, exponentiate, add one, divide one by it. Over the extended reals the logistic function IS that
expression, at every argument, the two infinities included (`−∞ ↦ 0`, `+∞ ↦ 1`), and a sum from zero is the sum. So the
result vector is the reference's, entry by entry, and no finiteness of the inputs is used.
-/

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.ReadP (val_main_v101 val_main_v108 val_main_v116)

variable (m : (ℓ : Loc nD τ sig) → Buf (Elt Ideal) ℓ) (ρ : Dev nD → PrngReg)

/-! ## The score column, laid out as a vector, is the reference's result -/

/-- Entry `r` of the reference's result is the logistic function of the inner product of the two gathered rows of label
    edge `r` (the reference's tail over its two gathered stages); the score column laid out as a vector reads, at `r`, the
    column's row `r`. -/
theorem score_eq_v116 (x : Feats) (e : Edges) (l : LabelEdges) (w : Weights) (b : Bias) (w2 : Weights) (b2 : Bias) :
    shapeCast Cert.KernelIdeal.S200000
        (Spec.score (val_main_v101 (F := Ideal) x e l w b w2 b2) (val_main_v108 (F := Ideal) x e l w b w2 b2))
        Cert.KernelIdeal.Facts₀.shapeCasts_S200000x1_S200000
      = val_main_v116 (F := Ideal) x e l w b w2 b2 := by
  rw [Cert.ReferenceIdeal.ScoreLaw.v116_eq_tail]
  generalize val_main_v101 (F := Ideal) x e l w b w2 b2 = ga
  generalize val_main_v108 (F := Ideal) x e l w b w2 b2 = gb
  funext j
  obtain ⟨r, rfl⟩ : ∃ r : Fin 200000, j = ix1 r := ⟨j 0, eq_ix1 j⟩
  rw [shapeCast_apply _ _ (ix1 r) (ix2 r (0 : Fin 1)) (by
    rw [Shape.rowMajor_val_two, Shape.rowMajor_val_one]
    show r.val * 1 + 0 = r.val
    omega)]
  refine Eq.trans ?_ (Cert.ReferenceIdeal.ScoreLaw.tail_apply ga gb r).symm
  unfold Spec.score
  have hrow : ∀ k : Fin 128, Spec.featAt (ix2 r (0 : Fin 1)) k = Cert.ReferenceIdeal.ScoreLaw.entry r k := fun k => funext fun a => by
    match a with
    | ⟨0, _⟩ => rfl
    | ⟨1, _⟩ => rfl
  simp only [hrow]

/-! ## At the decoder's exit, and at the return -/

/-- The decoder's result column holds the score of every label edge, from the reference's two gathered arrays. -/
theorem W8_v82 (c : Dev nD) :
    W8 (F := Ideal) m ρ c (Proc.devRef .tc main_v82)
      = Spec.score (val_main_v101 (F := Ideal) (feats m c) (edges m c) (labelEdges m c) (weights1 m c) (bias1 m c) (weights2 m c) (bias2 m c))
          (val_main_v108 (F := Ideal) (feats m c) (edges m c) (labelEdges m c) (weights1 m c) (bias1 m c) (weights2 m c) (bias2 m c)) :=
  calc W8 m ρ c (Proc.devRef .tc main_v82)
    _ = (dat2 (F := Ideal) (V7 m ρ) c).arrAt 2 cfg2.N := W8_arr m ρ c 2
    _ = Spec.score (V7 m ρ c main_v74) (V7 m ρ c main_v81) := RegionValue.decode_value (V7 m ρ) c
    _ = _ := by
      rw [show V7 m ρ c main_v74 = _ from W7_v74 m ρ c, show V7 m ρ c main_v81 = _ from W7_v81 m ρ c]

/-- The last operation read over ANY contents below it that hold a column at the decoder's result: the column laid out as a vector. -/
theorem read_v83 (Wlow : Valuation τ sig (Elt Ideal)) (col : Cert.KernelIdeal.S200000x1.Idx → Elt Ideal .f32)
    (h82 : Wlow (Proc.devRef .tc main_v82) = col) :
    StableHlo.after (hostOps3 (F := Ideal)) Wlow (Proc.devRef .tc main_v83)
      = shapeCast Cert.KernelIdeal.S200000 col Cert.KernelIdeal.Facts₀.shapeCasts_S200000x1_S200000 := by
  after_results
  rw [show Wlow (Proc.devRef .tc main_v82) = col from h82]
  rfl

/-- THE RESULT: at the return the program's result array is the reference's result stage of the launched arguments. -/
theorem W9_v83 (c : Dev nD) :
    W9 (F := Ideal) m ρ c (Proc.devRef .tc main_v83)
      = val_main_v116 (F := Ideal) (feats m c) (edges m c) (labelEdges m c) (weights1 m c) (bias1 m c) (weights2 m c) (bias2 m c) :=
  (read_v83 (W8 m ρ c) _ (W8_v82 m ρ c)).trans (score_eq_v116 _ _ _ _ _ _ _)

end Cert.KernelIdeal.Fold

end
-- ==== Proof.lean ====
/-
  A two-layer graph convolution followed by a link decoder, against its plain reference, over the extended reals.

  Both programs take node features `x`, an edge list, a list of label edges, and two layers' weights and biases. With
  `Â` the edge list's adjacency with a self-loop at every node, scaled edge by edge by `d⁻¹ᐟ²[src] · d⁻¹ᐟ²[dst]` (`d` the
  in-degree, self-loop counted), they compute `z₁ = Â (x W₁) + b₁`, `z₂ = Â (max(z₁, 0) W₂) + b₂`, and for every label edge
  `(u, v)` the score `σ(⟨z₂[u], z₂[v]⟩)`, `σ` the logistic function.

  The kernel's program does the two feature transforms and the decoder in three tiled regions and everything indexed by
  edges (the degree, the normalisation, the gathers, the scatter-adds, the biases) in host operations between them, which
  are the reference's own operations in the reference's order. So the two results are one function of the arguments as soon
  as three things are seen, each at every entry and with no use of finiteness:
    * a product taken block of rows by block of rows, its operands narrowed to a shorter format first, is the one product:
      narrowing is the identity here, a block's rows meet the whole of `W`, and the blocks tile the array;
    * the rectifier applied as the second transform loads its rows is the rectifier applied to the whole array beforehand;
    * the logistic function of a row sum is one over one plus the exponential of minus that sum taken from zero: that is
      what the logistic function is on the extended reals, the infinities included, and `0 + s = s` there.
  The reference computes the edge columns and the normalisation once per layer; the second computation is the first.

  Each program's run terminates without fault and leaves its arguments as launched; the kernel's idealization rewrote no
  operation, so there is nothing for it to preserve.
-/
import proofs.«166670_j33964601377214_1_alg».proof.Defs
import proofs.«166670_j33964601377214_1_alg».proof.Proof.Gen.Kernel
import proofs.«166670_j33964601377214_1_alg».proof.Proof.Gen.Kernel.Frame
import proofs.«166670_j33964601377214_1_alg».proof.Proof.Gen.KernelIdeal
import proofs.«166670_j33964601377214_1_alg».proof.Proof.Gen.KernelIdeal.Frame
import proofs.«166670_j33964601377214_1_alg».proof.Proof.Gen.ReferenceIdeal
import proofs.«166670_j33964601377214_1_alg».proof.Proof.Gen.Pre_finite_inputs
import proofs.«166670_j33964601377214_1_alg».proof.Proof.KernelRun
import proofs.«166670_j33964601377214_1_alg».proof.Proof.RefRunP
import proofs.«166670_j33964601377214_1_alg».proof.Proof.RefReadP
import proofs.«166670_j33964601377214_1_alg».proof.Proof.FoldResult
import Idealize.ShloMosaic.Adequacy
import Idealize.ShloMosaic.Init

noncomputable section

namespace Cert.Proof

open Idealize.ShloMosaic Idealize.ShloMosaic.TcCoe Idealize.SL.Sem

/-- The kernel's program, word for word, runs to the end and leaves its arguments alone. -/
theorem frame_kernel [Cert.Kernel.Facts] [Cert.Pre_finite_inputs.Facts] : Cert.frame_Kernel :=
  fun m ρ _ => Cert.Kernel.Gen.frame m ρ

/-- So does its idealization. -/
theorem frame_kernelIdeal [Cert.KernelIdeal.Facts] [Cert.Pre_finite_inputs.Facts] : Cert.frame_KernelIdeal :=
  fun m ρ _ => Cert.KernelIdeal.Gen.frame m ρ

/-- So does the reference: its run with the result forgotten. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the arguments both idealized programs end with the same scores: the reference's result
    stage of the arguments. The kernel's side is its run read back through the boundary contents; the reference's side is
    its run, its result term being that stage, at arguments that are the kernel's. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.ReadP.val_main_v116 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Fold.W9_v83 m ρ c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v116_eq, (hagree c).1, (hagree c).2.1, (hagree c).2.2.1, (hagree c).2.2.2.1,
      (hagree c).2.2.2.2.1, (hagree c).2.2.2.2.2.1, (hagree c).2.2.2.2.2.2]

/-- The certificate. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
